-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x256 : Shape := ⟨3, ![16, 512, 256]⟩
abbrev S16x4096 : Shape := ⟨2, ![16, 4096]⟩
abbrev S_ : Shape := ⟨0, ![]⟩

class Facts : Prop where
  bcast_S_S16x512x256 : S_.BroadcastsInDim S16x512x256 (![] : Fin 0 → Fin S16x512x256.rank)
  reducesTo_S16x512x256_S_d0_1_2 : S16x512x256.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S16x512x256 .f32) (main_arg1 : IVec S16x4096 32) : IVec S_ 1 :=
  let main_v0 : FVec F S16x512x256 .f32 := Host.absf main_arg0
  let main_cst : FVec F S_ .f32 := constant S_ .f32 0x7F800000#32
  let main_v1 : FVec F S16x512x256 .f32 := broadcastInDim S16x512x256 ![] bcast_S_S16x512x256 main_cst
  let main_v2 : IVec S16x512x256 1 := cmpf .olt main_v0 main_v1
  let main_c : IVec S_ 1 := constantI S_ 1 1#1
  let main_v3 : IVec S_ 1 := (fun x v => Host.reduce IntOp.andi x v reducesTo_S16x512x256_S_d0_1_2 h_S_) main_v2 main_c
  let main_c_0 : IVec S_ 32 := constantI S_ 32 0#32
  let main_v4 : IVec S16x4096 32 := broadcastInDim S16x4096 ![] bcast_S_S16x4096 main_c_0
  let main_v5 : IVec S16x4096 1 := cmpi .sge main_arg1 main_v4
  let main_c_1 : IVec S_ 32 := constantI S_ 32 512#32
  let main_v6 : IVec S16x4096 32 := broadcastInDim S16x4096 ![] bcast_S_S16x4096 main_c_1
  let main_v7 : IVec S16x4096 1 := cmpi .sle main_arg1 main_v6
  let main_v8 : IVec S16x4096 1 := andi main_v5 main_v7
  let main_c_2 : IVec S_ 1 := constantI S_ 1 1#1
  let main_v9 : IVec S_ 1 := (fun x v => Host.reduce IntOp.andi x v reducesTo_S16x4096_S_d0_1 h_S_) main_v8 main_c_2
  let main_v10 : IVec S_ 1 := andi main_v3 main_v9
  main_v10
-- ==== Kernel.lean ====
abbrev S16x512x256 : Shape := ⟨3, ![16, 512, 256]⟩
abbrev S16x4096 : Shape := ⟨2, ![16, 4096]⟩
abbrev S16x512x512 : Shape := ⟨3, ![16, 512, 512]⟩
abbrev S_ : Shape := ⟨0, ![]⟩
abbrev S16x4096x256 : Shape := ⟨3, ![16, 4096, 256]⟩
abbrev S16x256 : Shape := ⟨2, ![16, 256]⟩
abbrev S16x256x256 : Shape := ⟨3, ![16, 256, 256]⟩
abbrev S16x256x512 : Shape := ⟨3, ![16, 256, 512]⟩
abbrev S16x256x1 : Shape := ⟨3, ![16, 256, 1]⟩
abbrev S16 : Shape := ⟨1, ![16]⟩

abbrev nBuf : Space → Nat
  | .hbm => 25
  | .vmem => 5
  | .smem => 0
  | _ => 0

abbrev bufTy : (tb : Table) → Fin (tcTables nBuf tb) → BufTy
  | .hbm, ⟨0, _⟩ => ⟨S16x512x256, .f32⟩
  | .hbm, ⟨1, _⟩ => ⟨S16x4096, .i32⟩
  | .hbm, ⟨2, _⟩ => ⟨S16x512x256, .bf16⟩
  | .hbm, ⟨3, _⟩ => ⟨S16x512x256, .f32⟩
  | .hbm, ⟨4, _⟩ => ⟨S16x512x256, .f32⟩
  | .hbm, ⟨5, _⟩ => ⟨S16x512x256, .bf16⟩
  | .hbm, ⟨6, _⟩ => ⟨S16x512x512, .bf16⟩
  | .hbm, ⟨7, _⟩ => ⟨S_, .i32⟩
  | .hbm, ⟨8, _⟩ => ⟨S16x4096, .i32⟩
  | .hbm, ⟨9, _⟩ => ⟨S16x4096, .i32⟩
  | .hbm, ⟨10, _⟩ => ⟨S16x4096x256, .f32⟩
  | .hbm, ⟨11, _⟩ => ⟨S_, .i32⟩
  | .hbm, ⟨12, _⟩ => ⟨S16x4096, .i32⟩
  | .hbm, ⟨13, _⟩ => ⟨S16x4096, .i1⟩
  | .hbm, ⟨14, _⟩ => ⟨S_, .i1⟩
  | .hbm, ⟨15, _⟩ => ⟨S16, .i1⟩
  | .hbm, ⟨16, _⟩ => ⟨S16x4096, .i32⟩
  | .hbm, ⟨17, _⟩ => ⟨S_, .i1⟩
  | .hbm, ⟨18, _⟩ => ⟨S_, .i32⟩
  | .hbm, ⟨19, _⟩ => ⟨S16, .i1⟩
  | .hbm, ⟨20, _⟩ => ⟨S16, .i32⟩
  | .hbm, ⟨21, _⟩ => ⟨S_, .i32⟩
  | .hbm, ⟨22, _⟩ => ⟨S_, .i32⟩
  | .hbm, ⟨23, _⟩ => ⟨S16, .i32⟩
  | .hbm, ⟨24, _⟩ => ⟨S16, .i32⟩
  | .local _ .vmem, ⟨0, _⟩ => ⟨S16x256, .i32⟩
  | .local _ .vmem, ⟨1, _⟩ => ⟨S16x256, .i32⟩
  | .local _ .vmem, ⟨2, _⟩ => ⟨S16x512x512, .bf16⟩
  | .local _ .vmem, ⟨3, _⟩ => ⟨S16x256x256, .f32⟩
  | .local _ .vmem, ⟨4, _⟩ => ⟨S16x256x256, .f32⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_call0_v0 : Ref sig .tc := ⟨.hbm, 16, rfl⟩
abbrev main_call0_c : Ref sig .tc := ⟨.hbm, 17, rfl⟩
abbrev main_call0_c_0 : Ref sig .tc := ⟨.hbm, 18, rfl⟩
abbrev main_call0_v1_0 : Ref sig .tc := ⟨.hbm, 19, rfl⟩
abbrev main_v11 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  concatenates_S16x512x256_S16x512x256_S16x512x512_d2 : Shape.Concatenates [S16x512x256, S16x512x256] S16x512x512 2
  bcast_S_S16x4096 : S_.BroadcastsInDim S16x4096 (![] : Fin 0 → Fin S16x4096.rank)
  inb_S16x256_S16x256_0_0 : ∀ a, (![0, 0] : Fin 2 → Nat) a + S16x256.size a ≤ S16x256.size a
  h_S16x256 : 0 < S16x256.numel
  shapeCasts_S16x256_S16x256 : S16x256.ShapeCasts S16x256
  iota_S16x256x512_d2_w32 : S16x256x512.Iotas .tc 32 [2]
  shapeCasts_S16x256_S16x256x1 : S16x256.ShapeCasts S16x256x1
  broadcasts_S16x256x1_S16x256x512 : S16x256x1.Broadcasts S16x256x512
  natLt_1_32 : 1 < 32
  inb_S16x512x512_S16x512x512_0_0_0 : ∀ a, (![0, 0, 0] : Fin 3 → Nat) a + S16x512x512.size a ≤ S16x512x512.size a
  h_S16x512x512 : 0 < S16x512x512.numel
  shapeCasts_S16x512x512_S16x512x512 : S16x512x512.ShapeCasts S16x512x512
  slices_S16x256x512_o0_0_0_S16x256x256 : S16x256x512.Slices ![0, 0, 0] S16x256x256
  slices_S16x256x512_o0_0_256_S16x256x256 : S16x256x512.Slices ![0, 0, 256] S16x256x256
  inb_S16x256x256_S16x256x256_0_0_0 : ∀ a, (![0, 0, 0] : Fin 3 → Nat) a + S16x256x256.size a ≤ S16x256x256.size a
  h_S16x256x256 : 0 < S16x256x256.numel
  reducesTo_S16x4096_S16_d1 : S16x4096.ReducesTo [1] S16
  h_S_ : 0 < S_.numel
  bcast_S_S16 : S_.BroadcastsInDim S16 (![] : Fin 0 → Fin S16.rank)
  dot_S16x256x512_S16x512x512_S16x256x512_2_1_1_2_0_0_wf : DotDims.WF S16x256x512 S16x512x512 S16x256x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S16x4096.size a
  hwx0_0 : ∀ i : grid0.Coords, EltTy.bits .i32 = 32 ∨ (Rect.block (s := S16x4096) S16x256.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512x512.size a ≤ S16x512x512.size a
  hwx0_1 : ∀ i : grid0.Coords, EltTy.bits .bf16 = 32 ∨ (Rect.block (s := S16x512x512) S16x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x256.size a ≤ S16x4096x256.size a
  hwx0_2 : ∀ i : grid0.Coords, EltTy.bits .f32 = 32 ∨ (Rect.block (s := S16x4096x256) S16x256x256.size (cc0_transform_2 i) (hinb0_2 i)).WholeWords (EltTy.packing .f32)

variable [Facts₀]

def dot_S16x256x512_S16x512x512_S16x256x512_2_1_1_2_0_0 : DotDims S16x256x512 S16x512x512 S16x256x512 where
  lhsContracting := [2]
  rhsContracting := [1]
  lhsNonContracting := [1]
  rhsNonContracting := [2]
  lhsBatch := [0]
  rhsBatch := [0]
  wf := dot_S16x256x512_S16x512x512_S16x256x512_2_1_1_2_0_0_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

abbrev win0_0 : Pipeline.Window sig grid0 :=
  Pipeline.Window.ofSpec (Memref.whole main_v6) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x256 : Shape := ⟨3, ![16, 512, 256]⟩
abbrev S16x4096 : Shape := ⟨2, ![16, 4096]⟩
abbrev S_ : Shape := ⟨0, ![]⟩
abbrev S16x513x256 : Shape := ⟨3, ![16, 513, 256]⟩
abbrev S16x4096x1 : Shape := ⟨3, ![16, 4096, 1]⟩
abbrev S1 : Shape := ⟨1, ![1]⟩
abbrev S1x1x1 : Shape := ⟨3, ![1, 1, 1]⟩
abbrev S16x4096x256 : Shape := ⟨3, ![16, 4096, 256]⟩
abbrev S16 : Shape := ⟨1, ![16]⟩

abbrev nBuf : Space → Nat
  | .hbm => 42
  | .vmem => 0
  | .smem => 0
  | _ => 0

abbrev bufTy : (tb : Table) → Fin (tcTables nBuf tb) → BufTy
  | .hbm, ⟨0, _⟩ => ⟨S16x512x256, .f32⟩
  | .hbm, ⟨1, _⟩ => ⟨S16x4096, .i32⟩
  | .hbm, ⟨2, _⟩ => ⟨S_, .i32⟩
  | .hbm, ⟨3, _⟩ => ⟨S_, .f32⟩
  | .hbm, ⟨4, _⟩ => ⟨S16x513x256, .f32⟩
  | .hbm, ⟨5, _⟩ => ⟨S16x4096x1, .i32⟩
  | .hbm, ⟨6, _⟩ => ⟨S_, .i32⟩
  | .hbm, ⟨7, _⟩ => ⟨S16x4096x1, .i32⟩
  | .hbm, ⟨8, _⟩ => ⟨S16x4096x1, .i1⟩
  | .hbm, ⟨9, _⟩ => ⟨S_, .i32⟩
  | .hbm, ⟨10, _⟩ => ⟨S16x4096x1, .i32⟩
  | .hbm, ⟨11, _⟩ => ⟨S16x4096x1, .i32⟩
  | .hbm, ⟨12, _⟩ => ⟨S16x4096x1, .i32⟩
  | .hbm, ⟨13, _⟩ => ⟨S1, .i32⟩
  | .hbm, ⟨14, _⟩ => ⟨S_, .i32⟩
  | .hbm, ⟨15, _⟩ => ⟨S16x4096x1, .i32⟩
  | .hbm, ⟨16, _⟩ => ⟨S16x4096x1, .i1⟩
  | .hbm, ⟨17, _⟩ => ⟨S1x1x1, .i32⟩
  | .hbm, ⟨18, _⟩ => ⟨S16x4096x1, .i32⟩
  | .hbm, ⟨19, _⟩ => ⟨S16x4096x1, .i1⟩
  | .hbm, ⟨20, _⟩ => ⟨S16x4096x1, .i1⟩
  | .hbm, ⟨21, _⟩ => ⟨S_, .i1⟩
  | .hbm, ⟨22, _⟩ => ⟨S16x4096, .i1⟩
  | .hbm, ⟨23, _⟩ => ⟨S16x4096x256, .f32⟩
  | .hbm, ⟨24, _⟩ => ⟨S16x4096x256, .i1⟩
  | .hbm, ⟨25, _⟩ => ⟨S_, .f32⟩
  | .hbm, ⟨26, _⟩ => ⟨S16x4096x256, .f32⟩
  | .hbm, ⟨27, _⟩ => ⟨S16x4096x256, .f32⟩
  | .hbm, ⟨28, _⟩ => ⟨S_, .i32⟩
  | .hbm, ⟨29, _⟩ => ⟨S16x4096, .i32⟩
  | .hbm, ⟨30, _⟩ => ⟨S16x4096, .i1⟩
  | .hbm, ⟨31, _⟩ => ⟨S_, .i1⟩
  | .hbm, ⟨32, _⟩ => ⟨S16, .i1⟩
  | .hbm, ⟨33, _⟩ => ⟨S16x4096, .i32⟩
  | .hbm, ⟨34, _⟩ => ⟨S_, .i1⟩
  | .hbm, ⟨35, _⟩ => ⟨S_, .i32⟩
  | .hbm, ⟨36, _⟩ => ⟨S16, .i1⟩
  | .hbm, ⟨37, _⟩ => ⟨S16, .i32⟩
  | .hbm, ⟨38, _⟩ => ⟨S_, .i32⟩
  | .hbm, ⟨39, _⟩ => ⟨S_, .i32⟩
  | .hbm, ⟨40, _⟩ => ⟨S16, .i32⟩
  | .hbm, ⟨41, _⟩ => ⟨S16, .i32⟩
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_c_1 : Ref sig .tc := ⟨.hbm, 13, rfl⟩
abbrev main_call1_c_2 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_c_3 : Ref sig .tc := ⟨.hbm, 21, rfl⟩
abbrev main_call1_v11 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_call2_v0 : Ref sig .tc := ⟨.hbm, 33, rfl⟩
abbrev main_call2_c : Ref sig .tc := ⟨.hbm, 34, rfl⟩
abbrev main_call2_c_0 : Ref sig .tc := ⟨.hbm, 35, rfl⟩
abbrev main_call2_v1_0 : Ref sig .tc := ⟨.hbm, 36, rfl⟩
abbrev main_v6 : Ref sig .tc := ⟨.hbm, 37, rfl⟩
abbrev main_c_2 : Ref sig .tc := ⟨.hbm, 38, rfl⟩
abbrev main_call3_v0 : Ref sig .tc := ⟨.hbm, 39, rfl⟩
abbrev main_call3_v1 : Ref sig .tc := ⟨.hbm, 40, rfl⟩
abbrev main_v7 : Ref sig .tc := ⟨.hbm, 41, rfl⟩

abbrev nD : Nat := 1
abbrev τ : Topo := Topo.v7x

variable {F : FTy → Type} [FloatOps F]

class Facts₀ : Prop where
  pads_S16x512x256_S16x513x256_000_100_000 : S16x512x256.Pads (![0, 1, 0] : Fin 3 → Nat) ![0, 0, 0] ![0, 0, 0] S16x513x256
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S1_S1x1x1_2 : S1.BroadcastsInDim S1x1x1 (![2] : Fin 1 → Fin S1x1x1.rank)
  bcast_S1x1x1_S16x4096x1_0_1_2 : S1x1x1.BroadcastsInDim S16x4096x1 (![0, 1, 2] : Fin 3 → Fin S16x4096x1.rank)
  reducesTo_S16x4096x1_S16x4096_d2 : S16x4096x1.ReducesTo [2] S16x4096
  bcast_S16x4096_S16x4096x256_0_1 : S16x4096.BroadcastsInDim S16x4096x256 (![0, 1] : Fin 2 → Fin S16x4096x256.rank)
  bcast_S_S16x4096x256 : S_.BroadcastsInDim S16x4096x256 (![] : Fin 0 → Fin S16x4096x256.rank)
  bcast_S_S16x4096 : S_.BroadcastsInDim S16x4096 (![] : Fin 0 → Fin S16x4096.rank)
  reducesTo_S16x4096_S16_d1 : S16x4096.ReducesTo [1] S16
  bcast_S_S16 : S_.BroadcastsInDim S16 (![] : Fin 0 → Fin S16.rank)
  gather_S16x513x256_S16x4096x1_S16x4096x256_2_1_0_0_1_2_11256_wf : GatherDims.WF S16x513x256 S16x4096x1 S16x4096x256 [2] [1] [0] [1] [0] 2 ![1, 1, 256]

variable [Facts₀]

def gather_S16x513x256_S16x4096x1_S16x4096x256_2_1_0_0_1_2_11256 : GatherDims S16x513x256 S16x4096x1 S16x4096x256 where
  offsetDims := [2]
  collapsedSliceDims := [1]
  operandBatchingDims := [0]
  startIndicesBatchingDims := [0]
  startIndexMap := [1]
  indexVectorDim := 2
  sliceSizes := ![1, 1, 256]
  wf := gather_S16x513x256_S16x4096x1_S16x4096x256_2_1_0_0_1_2_11256_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

class Facts : Prop extends Facts₀ where

variable [Facts]
-- ==== Proof.PreDecode.lean ====
/-
  DECODING THE PRECONDITION. The precondition says that every entry of the float array satisfies |x| < +∞ and that every
  entry of the 32-bit integer array lies in [0, 512] under the signed order, each conjunction taken over all axes and the
  two joined into one rank-0 truth value. From "that value is 1" two facts follow: every float entry is a real number, and
  every integer entry, read unsigned, is at most 512.
-/
import proofs.«408916_j50414326120823_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic

variable [Cert.Pre_finite_inputs.Facts]

/-- The rank-0 shape has one index. -/
instance subsingleton_S_Idx : Subsingleton Cert.Pre_finite_inputs.S_.Idx := ⟨fun a b => funext fun d => d.elim0⟩

/-- The f32 pattern 0x7F800000 denotes +∞. -/
theorem ofBits_inf : Ideal.ofBits .f32 0x7F800000#32 = (⊤ : EReal) := by simp [Ideal.ofBits, Ideal.ieee]

/-- An extended real whose absolute value (the larger of it and its negation) is below +∞ is a real number:
    at +∞ and at −∞ that larger one is +∞ itself. -/
theorem exists_real_of_abs_lt_top (v : EReal) (hv : max v (-v) < ⊤) : ∃ r : ℝ, v = (r : EReal) := by
  induction v using EReal.rec with
  | bot => simp at hv
  | coe r => exact ⟨r, rfl⟩
  | top => simp at hv

/-- A 32-bit word that is at least 0 and at most 512 under the signed order has unsigned value at most 512:
    its signed value is non-negative, so its top bit is clear and the two readings agree. -/
theorem toNat_le_of_signed_range (w : BitVec 32) (h0 : IntOp.cmpi .sge w 0#32 = 1#1) (h1 : IntOp.cmpi .sle w 512#32 = 1#1) :
    w.toNat ≤ 512 := by
  unfold IntOp.cmpi at h0 h1
  rw [StableHlo.Predicate.ofBool_eq_one_iff] at h0 h1
  simp only [BitVec.sle, decide_eq_true_eq] at h0 h1
  have e0 : (0#32 : BitVec 32).toInt = 0 := by decide
  have e512 : (512#32 : BitVec 32).toInt = 512 := by decide
  rw [e0] at h0
  rw [e512] at h1
  have h32 := w.isLt
  rw [BitVec.toInt_eq_toNat_cond] at h0 h1
  split at h0 <;> omega

/-- Under the precondition every entry of `x` is a real number. -/
theorem real_of_pre (x : FVec Ideal Cert.Pre_finite_inputs.S16x512x256 .f32) (d : IVec Cert.Pre_finite_inputs.S16x4096 32)
    (h : Cert.Pre_finite_inputs.fn (F := Ideal) x d = fun _ => 1#1) (i : Cert.Pre_finite_inputs.S16x512x256.Idx) :
    ∃ r : ℝ, (x i : EReal) = (r : EReal) := by
  have h0 := congrFun h ValueIdx.ix0
  dsimp only [Cert.Pre_finite_inputs.fn] at h0
  obtain ⟨hx, -⟩ := IntOp.andi_eq_one.1 h0
  have hi := Host.reduce_andi_all _ _ _ _ _ hx i
  -- the element of the compare: |x i| < the constant's value
  have hc : Ideal.cmp .olt (max (x i : EReal) (-(x i : EReal))) (Ideal.ofBits .f32 0x7F800000#32) = 1#1 := hi
  rw [ofBits_inf] at hc
  unfold Ideal.cmp at hc
  rw [StableHlo.Predicate.ofBool_eq_one_iff] at hc
  simp only [decide_eq_true_eq] at hc
  exact exists_real_of_abs_lt_top _ hc

/-- Under the precondition every entry of `d`, read as a natural number, is at most 512 (so it is a non-negative signed word). -/
theorem le_512_of_pre (x : FVec Ideal Cert.Pre_finite_inputs.S16x512x256 .f32) (d : IVec Cert.Pre_finite_inputs.S16x4096 32)
    (h : Cert.Pre_finite_inputs.fn (F := Ideal) x d = fun _ => 1#1) (i : Cert.Pre_finite_inputs.S16x4096.Idx) :
    (d i).toNat ≤ 512 := by
  have h0 := congrFun h ValueIdx.ix0
  dsimp only [Cert.Pre_finite_inputs.fn] at h0
  obtain ⟨-, hd⟩ := IntOp.andi_eq_one.1 h0
  have hi := Host.reduce_andi_all _ _ _ _ _ hd i
  -- the element of the conjunction: both signed compares of d i against the broadcast constants
  have hc : IntOp.andi (IntOp.cmpi .sge (d i) 0#32) (IntOp.cmpi .sle (d i) 512#32) = 1#1 := hi
  obtain ⟨hge, hle⟩ := IntOp.andi_eq_one.1 hc
  exact toNat_le_of_signed_range _ hge hle

end Cert.PreDecode

end
-- ==== Proof.KernelArrays.lean ====
import proofs.«408916_j50414326120823_3_alg».proof.Proof.Gen.KernelIdeal.Frame
import Idealize.ShloMosaic.Lib.Pipeline.Value
import Idealize.ShloMosaic.Lib.ValueIdx
import Idealize.ShloMosaic.Lib.StableHlo.Run

/-!
# The two arrays the kernel's windows stage, as the host lines before the call leave them

The table window's array is `x` and `x - x` laid side by side along the last axis (the two halves of the
two-term split of `x`, a change of float format being the identity on the extended reals); the index
window's array is `duration - 1`. Both are read here at an entry given by coordinates.
-/

noncomputable section

namespace Cert.KernelIdeal.Arrays

open Cert.KernelIdeal Cert.KernelIdeal.Gen Idealize.ShloMosaic Idealize.ShloMosaic.TcCoe Idealize.ShloMosaic.ValueIdx
open Idealize.SL.Sem

/-- `x` and the remainder `x - x` side by side along the last axis. -/
def table (x : FVec Ideal S16x512x256 .f32) : FVec Ideal S16x512x512 .bf16 :=
  concatenate S16x512x512 2
    [⟨S16x512x256, (truncf .bf16 x bitsLt_bf16_f32 : FVec Ideal S16x512x256 .bf16)⟩,
     ⟨S16x512x256, (truncf .bf16 (subf x (extf .f32 (truncf .bf16 x bitsLt_bf16_f32 : FVec Ideal S16x512x256 .bf16) bitsLt_bf16_f32))
        bitsLt_bf16_f32 : FVec Ideal S16x512x256 .bf16)⟩]
    concatenates_S16x512x256_S16x512x256_S16x512x512_d2

/-- The index array less one, entry by entry. -/
def shifted (d : IVec S16x4096 32) : IVec S16x4096 32 :=
  subi d (broadcastInDim S16x4096 ![] bcast_S_S16x4096 (constantI S_ 32 1#32))

variable (m : (ℓ : Loc nD τ sig) → Buf (Elt Ideal) ℓ)

/-- The table window's array when the call is entered. -/
theorem V_main_v4 (c : Dev nD) :
    (V m c main_v4 : FVec Ideal S16x512x512 .bf16) = table (m ((c : Thread nD τ).loc main_arg0)) := by
  show StableHlo.after hostOps0 (fun b => m (c, b)) (Proc.devRef .tc main_v4) = _
  after_results
  rfl

/-- The index window's array when the call is entered. -/
theorem V_main_v6 (c : Dev nD) :
    (V m c main_v6 : IVec S16x4096 32) = shifted (m ((c : Thread nD τ).loc main_arg1)) := by
  show StableHlo.after hostOps0 (fun b => m (c, b)) (Proc.devRef .tc main_v6) = _
  after_results
  rfl

/-- The left half of the table is `x`. -/
theorem table_apply_lo (x : FVec Ideal S16x512x256 .f32) (b : Fin 16) (t : Fin 512) (h : Fin 256) :
    table x (ix3 b t (⟨h.val, by have := h.isLt; omega⟩ : Fin 512)) = x (ix3 b t h) := by
  unfold table
  refine (concatenate_pair_apply_left (t := S16x512x512) (s₁ := S16x512x256) (s₂ := S16x512x256) (2 : Fin 3) _ _
    concatenates_S16x512x256_S16x512x256_S16x512x512_d2 _ rfl (ix3 b t h) ?_).trans rfl
  intro a
  match a with
  | ⟨0, _⟩ => rfl
  | ⟨1, _⟩ => rfl
  | ⟨2, _⟩ => rfl

/-- The right half of the table is `x - x`. -/
theorem table_apply_hi (x : FVec Ideal S16x512x256 .f32) (b : Fin 16) (t : Fin 512) (h : Fin 256) :
    table x (ix3 b t (⟨h.val + 256, by have := h.isLt; omega⟩ : Fin 512)) = x (ix3 b t h) - x (ix3 b t h) := by
  unfold table
  refine (concatenate_pair_apply_right (t := S16x512x512) (s₁ := S16x512x256) (s₂ := S16x512x256) (2 : Fin 3) _ _
    concatenates_S16x512x256_S16x512x256_S16x512x512_d2 _ rfl rfl (ix3 b t h) ?_ ?_).trans rfl
  · intro a ha
    match a with
    | ⟨0, _⟩ => rfl
    | ⟨1, _⟩ => rfl
    | ⟨2, _⟩ => exact absurd rfl ha
  · rfl

/-- Where `x` is a real number the right half is zero. -/
theorem table_apply_hi_real (x : FVec Ideal S16x512x256 .f32) (b : Fin 16) (t : Fin 512) (h : Fin 256)
    (hx : ∃ r : ℝ, (x (ix3 b t h) : EReal) = (r : EReal)) :
    table x (ix3 b t (⟨h.val + 256, by have := h.isLt; omega⟩ : Fin 512)) = 0 := by
  rw [table_apply_hi]
  obtain ⟨r, hr⟩ := hx
  rw [hr, ← EReal.coe_sub, sub_self, EReal.coe_zero]

/-- The shifted index array at an entry. -/
theorem shifted_apply (d : IVec S16x4096 32) (b : Fin 16) (T : Fin 4096) :
    shifted d (ix2 b T) = d (ix2 b T) - 1#32 := rfl

end Cert.KernelIdeal.Arrays

end
-- ==== Proof.LibBatchedMatmul.lean ====
import Idealize.ShloMosaic.PureOps.Ideal.Laws
import Idealize.ShloMosaic.Lib.ValueIdx

/-!
# A batched matrix product read at an entry

For operands `l : [B, Q, K]` and `r : [B, K, H]`, the leading axis a batch axis, the left operand's last axis
contracted with the right operand's middle axis, entry `(b, q, h)` of the `[B, Q, H]` result is
`Σ_k l(b, q, k) · r(b, k, h)` on the extended reals, both for the matrix unit's product into a zero
accumulator and for the host's `dot_general`. Stated at any extents and operand formats.
-/

namespace Cert.Lib

open Idealize.ShloMosaic Idealize.ShloMosaic.ValueIdx

/-- The dimension numbers of `bqk,bkh->bqh`. -/
abbrev bqkDims {B Q K H : ℕ} (wf : DotDims.WF ⟨3, ![B, Q, K]⟩ ⟨3, ![B, K, H]⟩ ⟨3, ![B, Q, H]⟩ [2] [1] [1] [2] [0] [0]) :
    DotDims ⟨3, ![B, Q, K]⟩ ⟨3, ![B, K, H]⟩ ⟨3, ![B, Q, H]⟩ :=
  ⟨[2], [1], [1], [2], [0], [0], wf⟩

/-! ### The operand indices, axis by axis

At result index `j` and contraction index `k` the left operand is read at `(j 0, j 1, k)` and the right
operand at `(j 0, k, j 2)`. -/

/-- The left operand's batch coordinate is the result's. -/
theorem bqk_lhsIdx_0 {B Q K H : ℕ} (wf : DotDims.WF ⟨3, ![B, Q, K]⟩ ⟨3, ![B, K, H]⟩ ⟨3, ![B, Q, H]⟩ [2] [1] [1] [2] [0] [0])
    (j : (⟨3, ![B, Q, H]⟩ : Shape).Idx) (k : (bqkDims wf).contr.Idx) :
    ((bqkDims wf).lhsIdx j k (0 : Fin 3)).val = (j (0 : Fin 3)).val := rfl

/-- The left operand's row coordinate is the result's second. -/
theorem bqk_lhsIdx_1 {B Q K H : ℕ} (wf : DotDims.WF ⟨3, ![B, Q, K]⟩ ⟨3, ![B, K, H]⟩ ⟨3, ![B, Q, H]⟩ [2] [1] [1] [2] [0] [0])
    (j : (⟨3, ![B, Q, H]⟩ : Shape).Idx) (k : (bqkDims wf).contr.Idx) :
    ((bqkDims wf).lhsIdx j k (1 : Fin 3)).val = (j (1 : Fin 3)).val := rfl

/-- The left operand's contracted coordinate, at the contraction index that carries `i`, is `i`. -/
theorem bqk_lhsIdx_2 {B Q K H : ℕ} (wf : DotDims.WF ⟨3, ![B, Q, K]⟩ ⟨3, ![B, K, H]⟩ ⟨3, ![B, Q, H]⟩ [2] [1] [1] [2] [0] [0])
    (j : (⟨3, ![B, Q, H]⟩ : Shape).Idx) (i : Fin K) :
    ((bqkDims wf).lhsIdx j ((contrEquiv1 (bqkDims wf) K rfl rfl).symm i) (2 : Fin 3)).val = i.val := by
  rw [DotDims.lhsIdx_val_of_single (bqkDims wf) (cl := (2 : Fin 3)) rfl]
  exact contrEquiv1_symm_val (bqkDims wf) K rfl rfl i

/-- The right operand's batch coordinate is the result's. -/
theorem bqk_rhsIdx_0 {B Q K H : ℕ} (wf : DotDims.WF ⟨3, ![B, Q, K]⟩ ⟨3, ![B, K, H]⟩ ⟨3, ![B, Q, H]⟩ [2] [1] [1] [2] [0] [0])
    (j : (⟨3, ![B, Q, H]⟩ : Shape).Idx) (k : (bqkDims wf).contr.Idx) :
    ((bqkDims wf).rhsIdx j k (0 : Fin 3)).val = (j (0 : Fin 3)).val := rfl

/-- The right operand's contracted coordinate, at the contraction index that carries `i`, is `i`. -/
theorem bqk_rhsIdx_1 {B Q K H : ℕ} (wf : DotDims.WF ⟨3, ![B, Q, K]⟩ ⟨3, ![B, K, H]⟩ ⟨3, ![B, Q, H]⟩ [2] [1] [1] [2] [0] [0])
    (j : (⟨3, ![B, Q, H]⟩ : Shape).Idx) (i : Fin K) :
    ((bqkDims wf).rhsIdx j ((contrEquiv1 (bqkDims wf) K rfl rfl).symm i) (1 : Fin 3)).val = i.val := by
  rw [DotDims.rhsIdx_val_of_single (bqkDims wf) (cr := (1 : Fin 3)) rfl]
  exact contrEquiv1_symm_val (bqkDims wf) K rfl rfl i

/-- The right operand's column coordinate is the result's third. -/
theorem bqk_rhsIdx_2 {B Q K H : ℕ} (wf : DotDims.WF ⟨3, ![B, Q, K]⟩ ⟨3, ![B, K, H]⟩ ⟨3, ![B, Q, H]⟩ [2] [1] [1] [2] [0] [0])
    (j : (⟨3, ![B, Q, H]⟩ : Shape).Idx) (k : (bqkDims wf).contr.Idx) :
    ((bqkDims wf).rhsIdx j k (2 : Fin 3)).val = (j (2 : Fin 3)).val := rfl

/-- The contraction sum of `bqk,bkh->bqh` at `(b, q, h)` re-indexed by the contracted coordinate. -/
theorem bqk_sum {B Q K H : ℕ} (wf : DotDims.WF ⟨3, ![B, Q, K]⟩ ⟨3, ![B, K, H]⟩ ⟨3, ![B, Q, H]⟩ [2] [1] [1] [2] [0] [0])
    (l : (⟨3, ![B, Q, K]⟩ : Shape).Idx → EReal) (r : (⟨3, ![B, K, H]⟩ : Shape).Idx → EReal)
    (b : Fin B) (q : Fin Q) (h : Fin H) :
    ∑ k : (bqkDims wf).contr.Idx, l ((bqkDims wf).lhsIdx (ix3 b q h) k) * r ((bqkDims wf).rhsIdx (ix3 b q h) k)
      = ∑ k : Fin K, l (ix3 b q k) * r (ix3 b k h) := by
  -- the contraction index set has one axis of extent `K`: sum over `Fin K` through that bijection,
  -- then compare the two operand indices coordinate by coordinate
  rw [← Equiv.sum_comp (contrEquiv1 (bqkDims wf) K rfl rfl).symm]
  refine Finset.sum_congr rfl fun i _ => ?_
  refine congrArg₂ (· * ·) (congrArg l (funext fun a => Fin.ext ?_)) (congrArg r (funext fun a => Fin.ext ?_))
  · match a with
    | ⟨0, _⟩ => exact bqk_lhsIdx_0 wf _ _
    | ⟨1, _⟩ => exact bqk_lhsIdx_1 wf _ _
    | ⟨2, _⟩ => exact bqk_lhsIdx_2 wf _ i
  · match a with
    | ⟨0, _⟩ => exact bqk_rhsIdx_0 wf _ _
    | ⟨1, _⟩ => exact bqk_rhsIdx_1 wf _ i
    | ⟨2, _⟩ => exact bqk_rhsIdx_2 wf _ _

/-- The matrix unit's product into the zero accumulator, at the ideal values, read at `(b, q, h)`. -/
theorem matmul_bqk_apply {B Q K H : ℕ} {φ₁ φ₂ : FTy}
    (wf : DotDims.WF ⟨3, ![B, Q, K]⟩ ⟨3, ![B, K, H]⟩ ⟨3, ![B, Q, H]⟩ [2] [1] [1] [2] [0] [0])
    (prec : Option ContractPrecision) (l : FVec Ideal ⟨3, ![B, Q, K]⟩ φ₁) (r : FVec Ideal ⟨3, ![B, K, H]⟩ φ₂)
    (b : Fin B) (q : Fin Q) (h : Fin H) :
    matmul (bqkDims wf) prec l r (constant ⟨3, ![B, Q, H]⟩ .f32 0x00000000#32) (ix3 b q h)
      = ∑ k : Fin K, l (ix3 b q k) * r (ix3 b k h) := by
  show FloatOps.matmul (bqkDims wf) prec l r (constant ⟨3, ![B, Q, H]⟩ .f32 0x00000000#32) (ix3 b q h) = _
  rw [Ideal.matmul_constant_zero_apply]
  exact bqk_sum wf l r b q h

/-- The host's `dot_general`, at the ideal values, read at `(b, q, h)`. -/
theorem dotGeneral_bqk_apply {B Q K H : ℕ} {φ₁ φ₂ : FTy}
    (wf : DotDims.WF ⟨3, ![B, Q, K]⟩ ⟨3, ![B, K, H]⟩ ⟨3, ![B, Q, H]⟩ [2] [1] [1] [2] [0] [0])
    (prec : Option ContractPrecision) (l : FVec Ideal ⟨3, ![B, Q, K]⟩ φ₁) (r : FVec Ideal ⟨3, ![B, K, H]⟩ φ₂)
    (b : Fin B) (q : Fin Q) (h : Fin H) :
    Host.dotGeneral (bqkDims wf) prec l r (ix3 b q h)
      = ∑ k : Fin K, l (ix3 b q k) * r (ix3 b k h) := by
  show FloatOps.dotGeneral (bqkDims wf) prec .single l r (ix3 b q h) = _
  rw [Ideal.dotGeneral_apply]
  exact bqk_sum wf l r b q h

end Cert.Lib
-- ==== Proof.Spec.lean ====
import Idealize.ShloMosaic.PureOps.Ideal.Laws
import Idealize.ShloMosaic.Lib.ValueIdx

/-!
# The length regulator as one function of its arguments

`out[b, T, h] = x[b, duration[b, T] - 1, h]` when `1 ≤ duration[b, T] ≤ 512`, and `0` otherwise: the table
`x` with a zero frame in front, read at `duration`. The kernel computes it as a one-hot matrix product: the
one-hot factor `hit w t` is `1` when the word `w` is the number `t` and `0` otherwise, and a sum of
`hit w t · f t` over `t < 512` picks `f` at `w` when `w < 512` and is `0` otherwise.
-/

noncomputable section

namespace Cert.Spec

open Idealize.ShloMosaic Idealize.ShloMosaic.ValueIdx

/-- The one-hot factor: the comparison bit of `w = t`, widened to a word and read as a signed integer. -/
def hit (w : BitVec 32) (t : Fin 512) : EReal :=
  (((((IntOp.cmpi .eq w (BitVec.ofNat 32 t.val)).setWidth 32).toInt : ℤ) : ℝ) : EReal)

theorem hit_eq (w : BitVec 32) (t : Fin 512) : hit w t = if w.toNat = t.val then 1 else 0 := by
  unfold hit IntOp.cmpi
  have ht : t.val < 2 ^ 32 := lt_trans t.isLt (by norm_num)
  by_cases h : w.toNat = t.val
  · have hw : w = BitVec.ofNat 32 t.val := by
      apply BitVec.eq_of_toNat_eq; rw [BitVec.toNat_ofNat, Nat.mod_eq_of_lt ht]; exact h
    rw [if_pos h, hw]
    simp
  · have hw : ¬ w = BitVec.ofNat 32 t.val := by
      intro e; apply h; rw [e, BitVec.toNat_ofNat, Nat.mod_eq_of_lt ht]
    rw [if_neg h]
    have hb : (w == BitVec.ofNat 32 t.val) = false := beq_eq_false_iff_ne.mpr hw
    simp [hb]

/-- A one-hot weighted sum picks the entry the word names, or nothing. -/
theorem sum_hit (w : BitVec 32) (f : Fin 512 → EReal) :
    ∑ t : Fin 512, hit w t * f t = if h : w.toNat < 512 then f ⟨w.toNat, h⟩ else 0 := by
  simp only [hit_eq]
  by_cases h : w.toNat < 512
  · rw [dif_pos h, Finset.sum_eq_single (⟨w.toNat, h⟩ : Fin 512)]
    · simp
    · intro t _ ht
      have : ¬ w.toNat = t.val := fun e => ht (Fin.ext e.symm)
      rw [if_neg this, zero_mul]
    · intro hn; exact absurd (Finset.mem_univ _) hn
  · rw [dif_neg h]
    refine Finset.sum_eq_zero fun t _ => ?_
    have : ¬ w.toNat = t.val := fun e => h (e ▸ t.isLt)
    rw [if_neg this, zero_mul]

/-- The expected result: the table read one frame back from `duration`, zero where `duration - 1` is no frame. -/
def expand (x : (⟨3, ![16, 512, 256]⟩ : Shape).Idx → EReal) (d : (⟨2, ![16, 4096]⟩ : Shape).Idx → BitVec 32) :
    (⟨3, ![16, 4096, 256]⟩ : Shape).Idx → EReal :=
  fun j =>
    if h : (d (ix2 (j 0) (j 1)) - 1#32).toNat < 512 then x (ix3 (j 0) ⟨(d (ix2 (j 0) (j 1)) - 1#32).toNat, h⟩ (j 2)) else 0

theorem expand_apply (x : (⟨3, ![16, 512, 256]⟩ : Shape).Idx → EReal) (d : (⟨2, ![16, 4096]⟩ : Shape).Idx → BitVec 32)
    (b : Fin 16) (T : Fin 4096) (h : Fin 256) :
    expand x d (ix3 b T h)
      = if hw : (d (ix2 b T) - 1#32).toNat < 512 then x (ix3 b ⟨(d (ix2 b T) - 1#32).toNat, hw⟩ h) else 0 := rfl

end Cert.Spec

end
-- ==== Proof.KernelPayload.lean ====
import proofs.«408916_j50414326120823_3_alg».proof.Proof.Gen.KernelIdeal.Skeleton
import proofs.«408916_j50414326120823_3_alg».proof.Proof.LibBatchedMatmul
import proofs.«408916_j50414326120823_3_alg».proof.Proof.Spec
import Idealize.ShloMosaic.Lib.Pipeline.Value
import Idealize.ShloMosaic.Lib.ValueIdx

/-!
# What the kernel body stores, entry by entry

At a grid point the body compares each entry of its `[16, 256]` index block with the positions `0 … 511`
(a one-hot selector), multiplies the selector into the `[16, 512, 512]` table block over the position axis,
and adds the two halves of the result's last axis. So entry `(b, q, h)` of what it stores is
`Σ_t hit(idx[b, q], t) · tab[b, t, h] + Σ_t hit(idx[b, q], t) · tab[b, t, 256 + h]`.
-/

noncomputable section

namespace Cert.KernelIdeal.Payload

open Cert.KernelIdeal Cert.KernelIdeal.Gen Idealize.ShloMosaic Idealize.ShloMosaic.ValueIdx Cert.Spec

/-- The one-hot selector the body builds from its index block. -/
def selector (x0 : Vec Ideal S16x256 .i32) : FVec Ideal S16x256x512 .bf16 :=
  truncf .bf16
    (sitofp .f32
      (extui 32
        (cmpi .eq
          (broadcastTo S16x256x512
            (shapeCast S16x256x1 (shapeCast S16x256 x0 shapeCasts_S16x256_S16x256 : IVec S16x256 32) shapeCasts_S16x256_S16x256x1)
            broadcasts_S16x256x1_S16x256x512)
          (iota .tc S16x256x512 32 [2] iota_S16x256x512_d2_w32))
        natLt_1_32) : FVec Ideal S16x256x512 .f32)
    bitsLt_bf16_f32

/-- The selector at `(b, q, t)` is the one-hot factor of the index block's entry `(b, q)` at position `t`. -/
theorem selector_apply (x0 : Vec Ideal S16x256 .i32) (b : Fin 16) (q : Fin 256) (t : Fin 512) :
    selector x0 (ix3 b q t) = hit (x0 (ix2 b q)) t := by
  unfold selector hit
  rw [truncf_apply, sitofp_apply, extui_apply]
  show (((((IntOp.cmpi .eq (broadcastTo S16x256x512 _ broadcasts_S16x256x1_S16x256x512 (ix3 b q t))
      (iota .tc S16x256x512 32 [2] iota_S16x256x512_d2_w32 (ix3 b q t))).setWidth 32).toInt : ℤ) : ℝ) : EReal) = _
  rw [iota_single_apply,
    broadcastTo_apply _ broadcasts_S16x256x1_S16x256x512 (ix3 b q t) (ix3 b q (0 : Fin 1)) (fun a => by
      match a with
      | ⟨0, _⟩ => rfl
      | ⟨1, _⟩ => rfl
      | ⟨2, _⟩ => rfl),
    shapeCast_apply _ shapeCasts_S16x256_S16x256x1 (ix3 b q (0 : Fin 1)) (ix2 b q) (by
      rw [Shape.rowMajor_val_two, Shape.rowMajor_val_three]
      show b.val * 256 + q.val = (b.val * 256 + q.val) * 1 + 0
      omega),
    shapeCast_self]

/-- The selector multiplied into the table block over the position axis. -/
def product (x0 : Vec Ideal S16x256 .i32) (x1 : Vec Ideal S16x512x512 .bf16) : FVec Ideal S16x256x512 .f32 :=
  matmul dot_S16x256x512_S16x512x512_S16x256x512_2_1_1_2_0_0 none (selector x0)
    (shapeCast S16x512x512 x1 shapeCasts_S16x512x512_S16x512x512 : FVec Ideal S16x512x512 .bf16)
    (constant S16x256x512 .f32 0x00000000#32)

/-- The product at `(b, q, h')` is the one-hot weighted sum of the table block's column `(b, ·, h')`. -/
theorem product_apply (x0 : Vec Ideal S16x256 .i32) (x1 : Vec Ideal S16x512x512 .bf16) (b : Fin 16) (q : Fin 256) (h' : Fin 512) :
    product x0 x1 (ix3 b q h') = ∑ t : Fin 512, hit (x0 (ix2 b q)) t * x1 (ix3 b t h') := by
  have hd : dot_S16x256x512_S16x512x512_S16x256x512_2_1_1_2_0_0
      = Cert.Lib.bqkDims dot_S16x256x512_S16x512x512_S16x256x512_2_1_1_2_0_0_wf := rfl
  unfold product
  rw [hd, Cert.Lib.matmul_bqk_apply, shapeCast_self]
  exact Finset.sum_congr rfl fun t _ => by rw [selector_apply]

/-- What the body stores is the sum of the product's two halves along the last axis. -/
theorem pay_eq (x0 : Vec Ideal S16x256 .i32) (x1 : Vec Ideal S16x512x512 .bf16) :
    k0_pay1 x0 x1
      = addf (extractStridedSlice S16x256x256 ![0, 0, 0] (product x0 x1) slices_S16x256x512_o0_0_0_S16x256x256)
          (extractStridedSlice S16x256x256 ![0, 0, 256] (product x0 x1) slices_S16x256x512_o0_0_256_S16x256x256) := rfl

/-- The body's stored value at `(b, q, h)`: the two one-hot weighted sums over the table block's two halves. -/
theorem pay_apply (x0 : Vec Ideal S16x256 .i32) (x1 : Vec Ideal S16x512x512 .bf16) (b : Fin 16) (q : Fin 256) (h : Fin 256) :
    k0_pay1 x0 x1 (ix3 b q h)
      = (∑ t : Fin 512, hit (x0 (ix2 b q)) t * x1 (ix3 b t (⟨h.val, by have := h.isLt; omega⟩ : Fin 512)))
        + ∑ t : Fin 512, hit (x0 (ix2 b q)) t * x1 (ix3 b t (⟨h.val + 256, by have := h.isLt; omega⟩ : Fin 512)) := by
  rw [pay_eq, addf_apply,
    extractStridedSlice_apply ![0, 0, 0] (product x0 x1) slices_S16x256x512_o0_0_0_S16x256x256 (ix3 b q h)
      (ix3 b q (⟨h.val, by have := h.isLt; omega⟩ : Fin 512)) (fun a => by
        match a with
        | ⟨0, _⟩ => show b.val = 0 + b.val; omega
        | ⟨1, _⟩ => show q.val = 0 + q.val; omega
        | ⟨2, _⟩ => show h.val = 0 + h.val; omega),
    extractStridedSlice_apply ![0, 0, 256] (product x0 x1) slices_S16x256x512_o0_0_256_S16x256x256 (ix3 b q h)
      (ix3 b q (⟨h.val + 256, by have := h.isLt; omega⟩ : Fin 512)) (fun a => by
        match a with
        | ⟨0, _⟩ => show b.val = 0 + b.val; omega
        | ⟨1, _⟩ => show q.val = 0 + q.val; omega
        | ⟨2, _⟩ => show h.val + 256 = 256 + h.val; omega),
    product_apply, product_apply]

end Cert.KernelIdeal.Payload

end
-- ==== Proof.KernelValue.lean ====
import proofs.«408916_j50414326120823_3_alg».proof.Proof.Gen.KernelIdeal.Frame
import proofs.«408916_j50414326120823_3_alg».proof.Proof.KernelArrays
import proofs.«408916_j50414326120823_3_alg».proof.Proof.KernelPayload
import proofs.«408916_j50414326120823_3_alg».proof.Proof.Spec
import Idealize.ShloMosaic.Lib.Pipeline.Value
import Idealize.ShloMosaic.Lib.ValueIdx
import Idealize.ShloMosaic.Lib.StableHlo.Run

/-!
# What the kernel program leaves in its two results

Grid point `τ` of the call reads rows `256 τ … 256 τ + 255` of the shifted index array and the whole table, and
writes rows `256 τ … 256 τ + 255` of the output. With the table `[x | 0]` (every entry of `x` a real number,
so that the remainder `x - x` vanishes) the one-hot product picks `x[b, duration - 1, h]` or nothing, which is
the length regulator's value; the sixteen blocks tile the output array. The second result is computed by the
host lines after the call from `duration` alone.
-/

set_option maxRecDepth 16384

noncomputable section

namespace Cert.KernelIdeal.HandValue

open Cert.KernelIdeal Cert.KernelIdeal.Gen Idealize.ShloMosaic Idealize.ShloMosaic.TcCoe Idealize.ShloMosaic.ValueIdx
open Idealize.SL.Sem Cert.Spec Cert.KernelIdeal.Arrays Cert.KernelIdeal.Payload
open Idealize.ShloMosaic.Pipeline (Dat)

/-! ## One grid point, over plain blocks -/

/-- If the index block is rows `256 τ …` of `D - 1` and the table block is `[X | 0]`, what the body stores at
    `(b, q, h)` is the length regulator's value at `(b, 256 τ + q, h)`. -/
theorem point_value (x0 : Vec Ideal S16x256 .i32) (x1 : Vec Ideal S16x512x512 .bf16)
    (X : FVec Ideal S16x512x256 .f32) (D : IVec S16x4096 32) (τ0 : Fin 16)
    (h0 : ∀ (b : Fin 16) (q : Fin 256), x0 (ix2 b q) = D (ix2 b (⟨256 * τ0.val + q.val, by have := τ0.isLt; have := q.isLt; omega⟩ : Fin 4096)) - 1#32)
    (hlo : ∀ (b : Fin 16) (t : Fin 512) (h : Fin 256), x1 (ix3 b t (⟨h.val, by have := h.isLt; omega⟩ : Fin 512)) = X (ix3 b t h))
    (hhi : ∀ (b : Fin 16) (t : Fin 512) (h : Fin 256), x1 (ix3 b t (⟨h.val + 256, by have := h.isLt; omega⟩ : Fin 512)) = 0)
    (b : Fin 16) (q : Fin 256) (h : Fin 256) :
    k0_pay1 x0 x1 (ix3 b q h)
      = expand X D (ix3 b (⟨256 * τ0.val + q.val, by have := τ0.isLt; have := q.isLt; omega⟩ : Fin 4096) h) := by
  rw [pay_apply]
  simp only [hlo, hhi, mul_zero, Finset.sum_const_zero, add_zero]
  rw [sum_hit, expand_apply, h0 b q]

/-- The same at an index `y` of the stored block. -/
theorem point_value_at (x0 : Vec Ideal S16x256 .i32) (x1 : Vec Ideal S16x512x512 .bf16)
    (X : FVec Ideal S16x512x256 .f32) (D : IVec S16x4096 32) (τ0 : Fin 16)
    (h0 : ∀ (b : Fin 16) (q : Fin 256), x0 (ix2 b q) = D (ix2 b (⟨256 * τ0.val + q.val, by have := τ0.isLt; have := q.isLt; omega⟩ : Fin 4096)) - 1#32)
    (hlo : ∀ (b : Fin 16) (t : Fin 512) (h : Fin 256), x1 (ix3 b t (⟨h.val, by have := h.isLt; omega⟩ : Fin 512)) = X (ix3 b t h))
    (hhi : ∀ (b : Fin 16) (t : Fin 512) (h : Fin 256), x1 (ix3 b t (⟨h.val + 256, by have := h.isLt; omega⟩ : Fin 512)) = 0)
    (y : S16x256x256.Idx) :
    k0_pay1 x0 x1 y
      = expand X D (ix3 (y 0) (⟨256 * τ0.val + (y 1).val, by
          have h1 : (y 1).val < 256 := (y 1).isLt
          have := τ0.isLt; omega⟩ : Fin 4096) (y 2)) := by
  obtain ⟨b, q, h, rfl⟩ : ∃ (b : Fin 16) (q : Fin 256) (h : Fin 256), y = ix3 b q h := ⟨y 0, y 1, y 2, eq_ix3 y⟩
  exact point_value x0 x1 X D τ0 h0 hlo hhi b q h

/-! ## The grid points' blocks -/

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has sixteen points. -/
theorem lt16 (t : Fin cfg0.N) : t.val < 16 := lt_of_lt_of_eq t.isLt N_0

/-- The printed index maps over the grid: the index window and the output window move down the rows with the
    point, the table window stays. -/
theorem idx_facts : ∀ t : Fin cfg0.N,
    win0_0.index t (0 : Fin 2) = 0 ∧ win0_0.index t (1 : Fin 2) = t.val
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- The index block at point `t`: rows `256 t …` of `duration - 1`. -/
theorem iblk0_apply (c : Dev nD) (t : Fin cfg0.N) (b : Fin 16) (q : Fin 256) :
    iblk m c 0 t (ix2 b q)
      = shifted (m ((c : Thread nD τ).loc main_arg1))
          (ix2 b (⟨256 * t.val + q.val, by have := lt16 t; have := q.isLt; omega⟩ : Fin 4096)) := by
  obtain ⟨e0, e1, -⟩ := idx_facts t
  show V m c main_v6 (((cfg0.win 0).blk t).view.emb (ix2 b q)) = _
  rw [V_main_v6]
  refine congrArg _ (funext fun a => Fin.ext ?_)
  match a with
  | ⟨0, _⟩ => show win0_0.index t (0 : Fin 2) * 16 + 1 * b.val = b.val; omega
  | ⟨1, _⟩ => show win0_0.index t (1 : Fin 2) * 256 + 1 * q.val = 256 * t.val + q.val; omega

/-- The table block at every point: the whole table. -/
theorem iblk1_apply (c : Dev nD) (t : Fin cfg0.N) (b : Fin 16) (s : Fin 512) (h' : Fin 512) :
    iblk m c 1 t (ix3 b s h') = table (m ((c : Thread nD τ).loc main_arg0)) (ix3 b s h') := by
  obtain ⟨-, -, e2, e3, e4, -⟩ := idx_facts t
  show V m c main_v4 (((cfg0.win 1).blk t).view.emb (ix3 b s h')) = _
  rw [V_main_v4]
  refine congrArg _ (funext fun a => Fin.ext ?_)
  match a with
  | ⟨0, _⟩ => show win0_1.index t (0 : Fin 3) * 16 + 1 * b.val = b.val; omega
  | ⟨1, _⟩ => show win0_1.index t (1 : Fin 3) * 512 + 1 * s.val = s.val; omega
  | ⟨2, _⟩ => show win0_1.index t (2 : Fin 3) * 512 + 1 * h'.val = h'.val; omega

/-! ## From the blocks to the array -/

/-- WHAT POINT `t` WRITES BACK is block `t` of the length regulator's value, when every entry of `x` is real. -/
theorem flushed_eq (c : Dev nD)
    (hx : ∀ i, ∃ r : ℝ, (m ((c : Thread nD τ).loc main_arg0) i : EReal) = (r : EReal)) (t : Fin cfg0.N) :
    (dats m 0 c).flushed 2 t
      = ((cfg0.win 2).blk t).view.read (Elt Ideal)
          (expand (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz3]
  simp only [View.ld_unit_zero (S := S16x256) hz2, View.ld_unit_zero (S := S16x512x512) hz3]
  obtain ⟨-, -, -, -, -, e5, e6, e7⟩ := idx_facts t
  funext y
  refine (point_value_at (iblk m c 0 t) (iblk m c 1 t) (m ((c : Thread nD τ).loc main_arg0))
    (m ((c : Thread nD τ).loc main_arg1)) ⟨t.val, lt16 t⟩
    (fun b q => iblk0_apply m c t b q)
    (fun b s h => (iblk1_apply m c t b s _).trans (table_apply_lo _ b s h))
    (fun b s h => (iblk1_apply m c t b s _).trans (table_apply_hi_real _ b s h (hx _))) y).trans ?_
  show expand _ _ _ = expand _ _ (((cfg0.win 2).blk t).view.emb y)
  refine congrArg _ (funext fun a => Fin.ext ?_)
  match a with
  | ⟨0, _⟩ => show (y 0).val = win0_2.index t (0 : Fin 3) * 16 + 1 * (y 0).val; omega
  | ⟨1, _⟩ => show 256 * t.val + (y 1).val = win0_2.index t (1 : Fin 3) * 256 + 1 * (y 1).val; omega
  | ⟨2, _⟩ => show (y 2).val = win0_2.index t (2 : Fin 3) * 256 + 1 * (y 2).val; omega

/-- An index of the output array is in point `t`'s block iff each coordinate is in the block's range on its axis. -/
theorem mem_blk (t : Fin cfg0.N) (i : S16x4096x256.Idx) :
    i ∈ ((cfg0.win 2).blk t).view.set ↔ ∀ a : Fin 3, win0_2.index t a * S16x256x256.size a ≤ (i a).val
      ∧ (i a).val < win0_2.index t a * S16x256x256.size a + S16x256x256.size a := by
  show i ∈ ((View.whole main_v7).slice (win0_2.rect t)).set ↔ _
  rw [View.set_slice_whole, Rect.mem_set_unit]
  exact Iff.rfl

/-- The sixteen blocks tile the output array: row `r` lies in the block of point `r / 256`. -/
theorem cover (i : S16x4096x256.Idx) :
    ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 256 := (i 2).isLt
  have hN : (i 1).val / 256 < cfg0.N := lt_of_lt_of_eq (by omega : (i 1).val / 256 < 16) N_0.symm
  obtain ⟨-, -, -, -, -, e5, e6, e7⟩ := idx_facts ⟨(i 1).val / 256, hN⟩
  refine ⟨⟨(i 1).val / 256, hN⟩, flush0_2 _, ?_⟩
  rw [mem_blk]
  intro a
  match a with
  | ⟨0, _⟩ =>
    show win0_2.index ⟨(i 1).val / 256, hN⟩ (0 : Fin 3) * 16 ≤ (i 0).val ∧ (i 0).val < win0_2.index ⟨(i 1).val / 256, hN⟩ (0 : Fin 3) * 16 + 16
    omega
  | ⟨1, _⟩ =>
    show win0_2.index ⟨(i 1).val / 256, hN⟩ (1 : Fin 3) * 256 ≤ (i 1).val ∧ (i 1).val < win0_2.index ⟨(i 1).val / 256, hN⟩ (1 : Fin 3) * 256 + 256
    have e6' : win0_2.index ⟨(i 1).val / 256, hN⟩ (1 : Fin 3) = (i 1).val / 256 := e6
    omega
  | ⟨2, _⟩ =>
    show win0_2.index ⟨(i 1).val / 256, hN⟩ (2 : Fin 3) * 256 ≤ (i 2).val ∧ (i 2).val < win0_2.index ⟨(i 1).val / 256, hN⟩ (2 : Fin 3) * 256 + 256
    omega

/-- THE OUTPUT ARRAY after the call is the length regulator's value. -/
theorem final (c : Dev nD)
    (hx : ∀ i, ∃ r : ℝ, (m ((c : Thread nD τ).loc main_arg0) i : EReal) = (r : EReal)) :
    (dats m 0 c).arrAt 2 cfg0.N = expand (m ((c : Thread nD τ).loc main_arg0)) (m ((c : Thread nD τ).loc main_arg1)) :=
  (dats m 0 c).arrAt_eq_of_cover 2 (expand (m ((c : Thread nD τ).loc main_arg0)) (m ((c : Thread nD τ).loc main_arg1)))
    (fun t _ => flushed_eq m c hx t) cover

/-! ## The second result: the host lines after the call -/

/-- Which entries of the index array are zero. -/
def isZero (d : IVec S16x4096 32) : IVec S16x4096 1 :=
  cmpi .eq d (broadcastInDim S16x4096 ![] bcast_S_S16x4096 (constantI S_ 32 0#32))

/-- Per row the position of the first zero entry (the arg-max of the zero mask), or `4096` when the row has none. -/
def melLen (d : IVec S16x4096 32) : IVec S16 32 :=
  select (Host.reduce IntOp.ori (isZero d) (constantI S_ 1 0#1) reducesTo_S16x4096_S16_d1 h_S_)
    (fun j => (Host.reduce2 reducer_argmax_i1_i32 (isZero d) (iotaInDim S16x4096 32 1) (constantI S_ 1 0#1)
      (constantI S_ 32 0#32) reducesTo_S16x4096_S16_d1 h_S_ j).2)
    (broadcastInDim S16 ![] bcast_S_S16 (id (constantI S_ 32 4096#32)))

attribute [local irreducible] Host.reduce Host.reduce2 in
/-- The lines after the call compute the second result from `duration` as launched. (The two reductions are kept
    folded: the equation never looks inside them.) -/
theorem tail_eq (c : Dev nD) :
    Pipeline.afterTail₀ cfgs (dats m) 0 (V0 m) [hostOps1, hostOps1_1, hostOps1_2, hostOps1_3] c main_v12
      = melLen (m ((c : Thread nD τ).loc main_arg1)) := by
  unfold Pipeline.afterTail₀
  simp only [hostOps1, hostOps1_1, hostOps1_2, hostOps1_3, List.flatten_cons, List.flatten_nil, List.append_nil,
    List.cons_append, List.nil_append]
  after_results
  have hw : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [hw]
  unfold melLen isZero
  rfl

/-! ## The run, read -/

/-- The frame run re-posted: the output array at the length regulator's value, the second result at the row
    lengths, the arguments unchanged, when every entry of `x` is a real number. -/
theorem run (hx : ∀ (c : Dev nD) i, ∃ r : ℝ, (m ((c : Thread nD τ).loc main_arg0) i : EReal) = (r : EReal)) :
    θ_run defs (onTc (τ := τ) (main (F := Ideal))) ⟨m, fun _ => 0, ρ⟩ fun r => ∀ c : Dev nD,
      r.2.mem ((c.tc : Thread nD τ).loc main_v7)
          = expand (m ((c.tc : Thread nD τ).loc main_arg0)) (m ((c.tc : Thread nD τ).loc main_arg1))
      ∧ r.2.mem ((c.tc : Thread nD τ).loc main_v12) = melLen (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).1 2).trans (final m c (hx c)),
        ((h c).2 main_v12 (Pipeline.mem_restRefs_of main_v12 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.HandValue

end
-- ==== Proof.RefTerms.lean ====
import proofs.«408916_j50414326120823_3_alg».proof.Proof.Gen.ReferenceIdeal

/-!
# The reference's two results as terms of its arguments

The reference prepends a zero frame to the table `x` along the time axis, reads that padded table at
the (normalised) index `duration`, and fills with a fixed pattern where the index is out of range;
its second result is the position of the first zero entry in each row of `duration`, or the row
length when there is none. Each is written here as one composed term of the host operations, in the
order the program applies them.
-/

noncomputable section

namespace Cert.ReferenceIdeal.Terms

open Idealize.ShloMosaic Cert.ReferenceIdeal Cert.ReferenceIdeal.Gen

variable {F : FTy → Type} [FloatOps F]

/-- The table with one zero frame in front of the time axis: `h[b, 0, :] = 0`, `h[b, t + 1, :] = x[b, t, :]`. -/
def padded (x : FVec F S16x512x256 .f32) : FVec F S16x513x256 .f32 :=
  pad S16x513x256 ![0, 1, 0] ![0, 0, 0] ![0, 0, 0] x (sitofp .f32 (constantI S_ 32 0#32) : FVec F S_ .f32)
    pads_S16x512x256_S16x513x256_000_100_000 h_S_

/-- The index array with a trailing unit axis. -/
def column (d : IVec S16x4096 32) : IVec S16x4096x1 32 :=
  broadcastInDim S16x4096x1 ![0, 1] bcast_S16x4096_S16x4096x1_0_1 d

/-- The start index of the gather: a negative index counts from the end of the padded axis (`513` is added). -/
def start (d : IVec S16x4096 32) : IVec S16x4096x1 32 :=
  select (cmpi .slt (column d) (broadcastInDim S16x4096x1 ![] bcast_S_S16x4096x1 (constantI S_ 32 0#32)))
    (addi (column d) (broadcastInDim S16x4096x1 ![] bcast_S_S16x4096x1 (constantI S_ 32 513#32)))
    (column d)

/-- Whether the start index lies in `[0, 512]`, per entry of the index array. -/
def inRange (d : IVec S16x4096 32) : IVec S16x4096 1 :=
  Host.reduce IntOp.andi
    (andi (cmpi .sge (start d) (broadcastInDim S16x4096x1 ![] bcast_S_S16x4096x1 (constantI S_ 32 0#32)))
      (cmpi .sle (start d)
        (broadcastInDim S16x4096x1 ![0, 1, 2] bcast_S1x1x1_S16x4096x1_0_1_2
          (broadcastInDim S1x1x1 ![2] bcast_S1_S1x1x1_2 (constantI S1 32 512#32)))))
    (constantI S_ 1 1#1) reducesTo_S16x4096x1_S16x4096_d2 h_S_

/-- The first result: the padded table read at the start index where it is in range, the fill pattern elsewhere. -/
def out (x : FVec F S16x512x256 .f32) (d : IVec S16x4096 32) : FVec F S16x4096x256 .f32 :=
  select (broadcastInDim S16x4096x256 ![0, 1] bcast_S16x4096_S16x4096x256_0_1 (inRange d))
    (Host.gather gather_S16x513x256_S16x4096x1_S16x4096x256_2_1_0_0_1_2_11256 (padded x) (start d))
    (broadcastInDim S16x4096x256 ![] bcast_S_S16x4096x256 (constant S_ .f32 0x7FC00000#32))

/-- Which entries of the index array are zero. -/
def isZero (d : IVec S16x4096 32) : IVec S16x4096 1 :=
  cmpi .eq d (broadcastInDim S16x4096 ![] bcast_S_S16x4096 (constantI S_ 32 0#32))

/-- The second result: per row the position of the first zero entry (the arg-max of the zero mask), or `4096`
    when the row has none. -/
def melLen (d : IVec S16x4096 32) : IVec S16 32 :=
  select (Host.reduce IntOp.ori (isZero d) (constantI S_ 1 0#1) reducesTo_S16x4096_S16_d1 h_S_)
    (fun j => (Host.reduce2 reducer_argmax_i1_i32 (isZero d) (iotaInDim S16x4096 32 1) (constantI S_ 1 0#1)
      (constantI S_ 32 0#32) reducesTo_S16x4096_S16_d1 h_S_ j).2)
    (broadcastInDim S16 ![] bcast_S_S16 (id (constantI S_ 32 4096#32)))

end Cert.ReferenceIdeal.Terms

end
-- ==== Proof.RefRun.lean ====
import proofs.«408916_j50414326120823_3_alg».proof.Proof.Gen.ReferenceIdeal
import proofs.«408916_j50414326120823_3_alg».proof.Proof.RefTerms
import Idealize.ShloMosaic.Lib.StableHlo.Run

/-!
# The reference program's run

The reference program has no kernel launch: its entry function is a straight line of host operations, four of
them calls of module-local functions whose bodies are straight lines again. Unfolding the calls at their buffer
records gives one list of forty operations; the run of such a list ends with every buffer at the fold of the
operations' results over the launch contents, and that fold, read at the two result buffers, is the composed
term of the two arguments.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the four calls unfolded at their records: the scalar zero; the
    padding call's two (the zero converted to a float, the pad); the index array's trailing unit axis; the
    gather call's twenty-two (the index normalised, its range test reduced over the unit axis, the gather, the
    fill pattern, the select); the zero mask of the index array and its row-wise disjunction; the arg-max call's
    five (the iota, the two initial values, one line per result of the paired reduction); the row length; the
    final select's three. -/
abbrev ops : List (HloOp τ sig (Elt F)) :=
  [ nullary main_c (constantI S_ 32 0#32),
    TRef.unary (.of main_c : TRef sig ⟨S_, .i32⟩) main_call0.v0 (sitofp .f32),
    TRef.binary (.of main_arg0 : TRef sig ⟨S16x512x256, .f32⟩) main_call0.v0 main_call0.v1 (fun x v => pad S16x513x256 ![0, 1, 0] ![0, 0, 0] ![0, 0, 0] x v pads_S16x512x256_S16x513x256_000_100_000 h_S_),
    unary main_arg1 main_v1 (broadcastInDim S16x4096x1 ![0, 1] bcast_S16x4096_S16x4096x1_0_1 : (⟨S16x4096, .i32⟩ : BufTy).Contents (Elt F) → (⟨S16x4096x1, .i32⟩ : BufTy).Contents (Elt F)),
    TRef.nullary main_call1.c (constantI S_ 32 0#32),
    TRef.unary main_call1.c main_call1.v0 (broadcastInDim S16x4096x1 ![] bcast_S_S16x4096x1),
    TRef.binary (.of main_v1 : TRef sig ⟨S16x4096x1, .i32⟩) main_call1.v0 main_call1.v1 (cmpi .slt),
    TRef.nullary main_call1.c_0 (constantI S_ 32 513#32),
    TRef.unary main_call1.c_0 main_call1.v2 (broadcastInDim S16x4096x1 ![] bcast_S_S16x4096x1),
    TRef.binary (.of main_v1 : TRef sig ⟨S16x4096x1, .i32⟩) main_call1.v2 main_call1.v3 addi,
    TRef.ternary main_call1.v1 main_call1.v3 (.of main_v1 : TRef sig ⟨S16x4096x1, .i32⟩) main_call1.v4 select,
    TRef.nullary main_call1.c_1 (constantI S1 32 512#32),
    TRef.nullary main_call1.c_2 (constantI S_ 32 0#32),
    TRef.unary main_call1.c_2 main_call1.v5 (broadcastInDim S16x4096x1 ![] bcast_S_S16x4096x1),
    TRef.binary main_call1.v4 main_call1.v5 main_call1.v6 (cmpi .sge),
    TRef.unary main_call1.c_1 main_call1.v7 (broadcastInDim S1x1x1 ![2] bcast_S1_S1x1x1_2),
    TRef.unary main_call1.v7 main_call1.v8 (broadcastInDim S16x4096x1 ![0, 1, 2] bcast_S1x1x1_S16x4096x1_0_1_2),
    TRef.binary main_call1.v4 main_call1.v8 main_call1.v9 (cmpi .sle),
    TRef.binary main_call1.v6 main_call1.v9 main_call1.v10 andi,
    TRef.nullary main_call1.c_3 (constantI S_ 1 1#1),
    TRef.binary main_call1.v10 main_call1.c_3 main_call1.v11 (fun x v => Host.reduce IntOp.andi x v reducesTo_S16x4096x1_S16x4096_d2 h_S_),
    TRef.binary (.of main_v0 : TRef sig ⟨S16x513x256, .f32⟩) main_call1.v4 main_call1.v12 (fun x i => Host.gather gather_S16x513x256_S16x4096x1_S16x4096x256_2_1_0_0_1_2_11256 x i),
    TRef.unary main_call1.v11 main_call1.v13 (broadcastInDim S16x4096x256 ![0, 1] bcast_S16x4096_S16x4096x256_0_1),
    TRef.nullary main_call1.cst (constant S_ .f32 0x7FC00000#32),
    TRef.unary main_call1.cst main_call1.v14 (broadcastInDim S16x4096x256 ![] bcast_S_S16x4096x256),
    TRef.ternary main_call1.v13 main_call1.v12 main_call1.v14 main_call1.v15 select,
    nullary main_c_0 (constantI S_ 32 0#32),
    unary main_c_0 main_v3 (broadcastInDim S16x4096 ![] bcast_S_S16x4096 : (⟨S_, .i32⟩ : BufTy).Contents (Elt F) → (⟨S16x4096, .i32⟩ : BufTy).Contents (Elt F)),
    binary main_arg1 main_v3 main_v4 (cmpi .eq : (⟨S16x4096, .i32⟩ : BufTy).Contents (Elt F) → (⟨S16x4096, .i32⟩ : BufTy).Contents (Elt F) → (⟨S16x4096, .i1⟩ : BufTy).Contents (Elt F)),
    nullary main_c_1 (constantI S_ 1 0#1),
    binary main_v4 main_c_1 main_v5 ((fun x v => Host.reduce IntOp.ori x v reducesTo_S16x4096_S16_d1 h_S_) : (⟨S16x4096, .i1⟩ : BufTy).Contents (Elt F) → (⟨S_, .i1⟩ : BufTy).Contents (Elt F) → (⟨S16, .i1⟩ : BufTy).Contents (Elt F)),
    TRef.nullary main_call2.v0 (iotaInDim S16x4096 32 1),
    TRef.nullary main_call2.c (constantI S_ 1 0#1),
    TRef.nullary main_call2.c_0 (constantI S_ 32 0#32),
    TRef.quaternary (.of main_v4 : TRef sig ⟨S16x4096, .i1⟩) main_call2.v0 main_call2.c main_call2.c_0 main_call2.v1_0 (fun x y u v j => (Host.reduce2 reducer_argmax_i1_i32 x y u v reducesTo_S16x4096_S16_d1 h_S_ j).1),
    TRef.quaternary (.of main_v4 : TRef sig ⟨S16x4096, .i1⟩) main_call2.v0 main_call2.c main_call2.c_0 main_call2.v1_1 (fun x y u v j => (Host.reduce2 reducer_argmax_i1_i32 x y u v reducesTo_S16x4096_S16_d1 h_S_ j).2),
    nullary main_c_2 (constantI S_ 32 4096#32),
    TRef.unary (.of main_c_2 : TRef sig ⟨S_, .i32⟩) main_call3.v0 id,
    TRef.unary main_call3.v0 main_call3.v1 (broadcastInDim S16 ![] bcast_S_S16),
    TRef.ternary (.of main_v5 : TRef sig ⟨S16, .i1⟩) (.of main_v6 : TRef sig ⟨S16, .i32⟩) main_call3.v1 main_call3.v2 select ]

-- forty binds re-associated: the rewrite under the chain recurses once per statement
set_option maxRecDepth 1024 in
/-- The entry function is that straight line: the functions' definitions unfolded at their calls and the records
    at their fields, both sides are one chain of host steps once sequencing is reassociated. -/
theorem main_eq (c : Dev nD) : main (F := F) c = seq ops := by
  simp only [main, fn_pad.body, fn_take_along_axis.body, fn_argmax.body, fn_where.body, seq, bind_assoc, pure_bind]

attribute [local irreducible] Host.reduce Host.reduce2 Host.gather pad in
set_option maxRecDepth 8192 in
/-- The fold at the first result buffer is the composed term. The fold is unrolled and rewritten in one pass, each
    shared intermediate value visited once: an operation's result at its own buffer is its function's value at the
    operands' contents, at any other buffer what was there. What is left differs from the composed term only by the
    typed references' transports along their type equations, the identity at these literal references. The
    reductions, the gather and the pad are kept folded meanwhile: their bodies are folds and searches over the
    operand's elements, and the equation never looks inside them. -/
theorem out_eq (V : Valuation τ sig (Elt F)) :
    after ops V (main_v2 : DevRef τ sig)
      = Terms.out (V (main_arg0 : DevRef τ sig)) (V (main_arg1 : DevRef τ sig)) := by
  after_results_simp
  rfl

attribute [local irreducible] Host.reduce Host.reduce2 Host.gather pad in
set_option maxRecDepth 8192 in
/-- The fold at the second result buffer is the composed term of the index array, likewise. -/
theorem melLen_eq (V : Valuation τ sig (Elt F)) :
    after ops V (main_v7 : DevRef τ sig) = Terms.melLen (V (main_arg1 : DevRef τ sig)) := by
  after_results_simp
  rfl

attribute [local irreducible] Host.reduce Host.reduce2 Host.gather pad in
set_option maxRecDepth 8192 in
/-- No operation writes the first argument. -/
theorem arg0_eq (V : Valuation τ sig (Elt F)) :
    after ops V (main_arg0 : DevRef τ sig) = V (main_arg0 : DevRef τ sig) := by
  simp only [after_cons, after_nil]
  rfl

attribute [local irreducible] Host.reduce Host.reduce2 Host.gather pad in
set_option maxRecDepth 8192 in
/-- No operation writes the second argument. -/
theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..,
    nullary_bufs_sub .., unary_bufs_sub .., binary_bufs_sub .., nullary_bufs_sub .., binary_bufs_sub ..,
    nullary_bufs_sub .., nullary_bufs_sub .., nullary_bufs_sub .., quaternary_bufs_sub .., quaternary_bufs_sub ..,
    nullary_bufs_sub .., unary_bufs_sub .., unary_bufs_sub .., ternary_bufs_sub ..⟩

/-- From any memory with zero counters: every weakly fair execution of the entry function on the TensorCores
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- On every device, for any float values, from any memory with zero counters: every weakly fair execution of
    the entry function terminates with the two results at the composed terms of the arguments' launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = Terms.out (m ((c.tc : Thread nD τ).loc main_arg0)) (m ((c.tc : Thread nD τ).loc main_arg1))
      ∧ r.2.mem ((c.tc : Thread nD τ).loc main_v7) = Terms.melLen (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq (launchContents m c)),
      (h c main_v7).trans (melLen_eq (launchContents m c)),
      (h c main_arg0).trans (arg0_eq (launchContents m c)),
      (h c main_arg1).trans (arg1_eq (launchContents m c))⟩)
    (run_main m ρ)

end Cert.ReferenceIdeal.HandRun

end
-- ==== Proof.LibBatchedTake.lean ====
import Idealize.ShloMosaic.PureOps.ShapeOps
import Idealize.ShloMosaic.Lib.ValueIdx

/-!
# A batched row gather read at an entry

What `take_along_axis(x, idx[..., None], axis=1)` of a table `x : [B, N, C]` at an index array `idx : [B, T]`
lowers to: a gather with offset axis `2`, collapsed axis `1`, batching axis `0` on both sides, start index map
`[1]`, slice sizes `[1, 1, C]` over the indices as `[B, T, 1]`. Entry `(b, t, h)` of the result is the table at
`(b, n, h)`, `n` the start index `idx[b, t, 0]` read as a signed integer and clamped into `[0, N - 1]`.
Stated at any extents, element type and index width.
-/

namespace Cert.Lib

open Idealize.ShloMosaic Idealize.ShloMosaic.ValueIdx

variable {α : Type}

/-- Those dimension numbers for an operand `[B, N, C]`, start indices `[B, T, 1]` and result `[B, T, C]`. -/
abbrev takeRowsDims (B N C T : Nat)
    (wf : GatherDims.WF ⟨3, ![B, N, C]⟩ ⟨3, ![B, T, 1]⟩ ⟨3, ![B, T, C]⟩ [2] [1] [0] [1] [0] 2 ![1, 1, C]) :
    GatherDims ⟨3, ![B, N, C]⟩ ⟨3, ![B, T, 1]⟩ ⟨3, ![B, T, C]⟩ where
  offsetDims := [2]
  collapsedSliceDims := [1]
  operandBatchingDims := [0]
  startIndicesBatchingDims := [0]
  startIndexMap := [1]
  indexVectorDim := 2
  sliceSizes := ![1, 1, C]
  wf := wf

/-! ### The operand index, axis by axis

At result index `(b, t, h)` the operand is read at `(b, n, h)`: the batch coordinate on axis `0`, the clamped
start index on axis `1`, the offset coordinate on axis `2`. Each fact is stated at a literal axis. -/

/-- On the batching axis: no start, no offset, the result's batch coordinate. -/
theorem takeRows_coord_0 {B N C T w : Nat}
    (wf : GatherDims.WF ⟨3, ![B, N, C]⟩ ⟨3, ![B, T, 1]⟩ ⟨3, ![B, T, C]⟩ [2] [1] [0] [1] [0] 2 ![1, 1, C])
    (idx : IVec ⟨3, ![B, T, 1]⟩ w) (b : Fin B) (t : Fin T) (h : Fin C) :
    (takeRowsDims B N C T wf).start (ix3 b t h) idx (0 : Fin 3) + (takeRowsDims B N C T wf).batchCoord (ix3 b t h) (0 : Fin 3)
      + (takeRowsDims B N C T wf).offCoord (ix3 b t h) (0 : Fin 3) = b.val := by
  have hmem : (0 : Fin 3) ∈ (takeRowsDims B N C T wf).operandBatchingDims := show (0 : Fin 3) ∈ [(0 : Fin 3)] from by decide
  rw [GatherDims.start_batching _ _ _ _ hmem,
    GatherDims.offCoord_eq_zero _ _ _ (fun hm => ((GatherDims.mem_sKept _ _).mp hm).2 hmem)]
  unfold GatherDims.batchCoord
  rw [dif_pos hmem]
  show 0 + b.val + 0 = b.val
  omega

/-- On the indexed axis: the start index read signed and clamped, nothing else. -/
theorem takeRows_coord_1 {B N C T w : Nat}
    (wf : GatherDims.WF ⟨3, ![B, N, C]⟩ ⟨3, ![B, T, 1]⟩ ⟨3, ![B, T, C]⟩ [2] [1] [0] [1] [0] 2 ![1, 1, C])
    (idx : IVec ⟨3, ![B, T, 1]⟩ w) (b : Fin B) (t : Fin T) (h : Fin C) :
    (takeRowsDims B N C T wf).start (ix3 b t h) idx (1 : Fin 3) + (takeRowsDims B N C T wf).batchCoord (ix3 b t h) (1 : Fin 3)
      + (takeRowsDims B N C T wf).offCoord (ix3 b t h) (1 : Fin 3) = min (idx (ix3 b t (0 : Fin 1))).toInt.toNat (N - 1) := by
  have hnb : (1 : Fin 3) ∉ (takeRowsDims B N C T wf).operandBatchingDims := show (1 : Fin 3) ∉ [(0 : Fin 3)] from by decide
  have hcol : (1 : Fin 3) ∈ (takeRowsDims B N C T wf).collapsedSliceDims := show (1 : Fin 3) ∈ [(1 : Fin 3)] from by decide
  have hsim : (1 : Fin 3) ∈ (takeRowsDims B N C T wf).startIndexMap := show (1 : Fin 3) ∈ [(1 : Fin 3)] from by decide
  rw [GatherDims.batchCoord_eq_zero _ _ _ hnb,
    GatherDims.offCoord_eq_zero _ _ _ (fun hm => ((GatherDims.mem_sKept _ _).mp hm).1 hcol)]
  unfold GatherDims.start
  rw [dif_pos hsim]
  have hsi : (takeRowsDims B N C T wf).siIdx (ix3 b t h) ⟨List.idxOf (1 : Fin 3) (takeRowsDims B N C T wf).startIndexMap,
      List.idxOf_lt_length_iff.2 hsim⟩ = ix3 b t (0 : Fin 1) := by
    funext c; refine Fin.ext ?_
    match c with
    | ⟨0, _⟩ => rfl
    | ⟨1, _⟩ => rfl
    | ⟨2, _⟩ => rfl
  rw [hsi]
  show min (idx (ix3 b t (0 : Fin 1))).toInt.toNat (N - 1) + 0 + 0 = _
  omega

/-- On the row axis: the result's offset coordinate. -/
theorem takeRows_coord_2 {B N C T w : Nat}
    (wf : GatherDims.WF ⟨3, ![B, N, C]⟩ ⟨3, ![B, T, 1]⟩ ⟨3, ![B, T, C]⟩ [2] [1] [0] [1] [0] 2 ![1, 1, C])
    (idx : IVec ⟨3, ![B, T, 1]⟩ w) (b : Fin B) (t : Fin T) (h : Fin C) :
    (takeRowsDims B N C T wf).start (ix3 b t h) idx (2 : Fin 3) + (takeRowsDims B N C T wf).batchCoord (ix3 b t h) (2 : Fin 3)
      + (takeRowsDims B N C T wf).offCoord (ix3 b t h) (2 : Fin 3) = h.val := by
  have hnb : (2 : Fin 3) ∉ (takeRowsDims B N C T wf).operandBatchingDims := show (2 : Fin 3) ∉ [(0 : Fin 3)] from by decide
  have hns : (2 : Fin 3) ∉ (takeRowsDims B N C T wf).startIndexMap := show (2 : Fin 3) ∉ [(1 : Fin 3)] from by decide
  have hk : (2 : Fin 3) ∈ (takeRowsDims B N C T wf).sKept :=
    (GatherDims.mem_sKept _ _).mpr ⟨show (2 : Fin 3) ∉ [(1 : Fin 3)] from by decide, hnb⟩
  rw [GatherDims.batchCoord_eq_zero _ _ _ hnb]
  unfold GatherDims.start
  rw [dif_neg hns]
  unfold GatherDims.offCoord
  rw [dif_pos hk]
  show 0 + 0 + h.val = h.val
  omega

/-- THE GATHER READ AT `(b, t, h)`: the table's row `b`, frame `idx[b, t, 0]` read signed and clamped into
    `[0, N - 1]`, column `h`. -/
theorem gather_takeRows_apply {B N C T w : Nat} (hN : 0 < N)
    (wf : GatherDims.WF ⟨3, ![B, N, C]⟩ ⟨3, ![B, T, 1]⟩ ⟨3, ![B, T, C]⟩ [2] [1] [0] [1] [0] 2 ![1, 1, C])
    (x : (⟨3, ![B, N, C]⟩ : Shape).Idx → α) (idx : IVec ⟨3, ![B, T, 1]⟩ w) (b : Fin B) (t : Fin T) (h : Fin C) :
    Host.gather (takeRowsDims B N C T wf) x idx (ix3 b t h)
      = x (ix3 b (⟨min (idx (ix3 b t (0 : Fin 1))).toInt.toNat (N - 1), by omega⟩ : Fin N) h) := by
  unfold Host.gather
  refine congrArg x (funext fun a => Fin.ext ?_)
  match a with
  | ⟨0, _⟩ => exact takeRows_coord_0 wf idx b t h
  | ⟨1, _⟩ => exact takeRows_coord_1 wf idx b t h
  | ⟨2, _⟩ => exact takeRows_coord_2 wf idx b t h

end Cert.Lib
-- ==== Proof.RefValue.lean ====
import proofs.«408916_j50414326120823_3_alg».proof.Proof.RefTerms
import proofs.«408916_j50414326120823_3_alg».proof.Proof.LibBatchedTake
import proofs.«408916_j50414326120823_3_alg».proof.Proof.Spec
import Idealize.ShloMosaic.Lib.KernelVsHost
import Idealize.ShloMosaic.Lib.StableHlo.Predicate
import Idealize.ShloMosaic.Lib.ValueIdx
import Idealize.ShloMosaic.PureOps.Ideal.Laws
import Idealize.ShloMosaic.PureOps.Reduce

/-!
# The reference's first result is the length regulator's value

Where every entry of `duration` lies in `[0, 512]`: the start index of the gather is the entry itself (it is not
negative, so nothing is added), the range test passes, the gather reads the padded table at frame `duration`,
and the padded table is zero at frame `0` and `x` one frame back elsewhere.
-/

noncomputable section

namespace Cert.ReferenceIdeal.RefValue

open Cert.ReferenceIdeal Cert.ReferenceIdeal.Gen Cert.ReferenceIdeal.Terms Idealize.ShloMosaic Idealize.ShloMosaic.ValueIdx
open Cert.Spec Idealize.ShloMosaic.StableHlo.Predicate

/-! ## Small non-negative words under the signed comparisons -/

theorem slt_zero_of_small (w : BitVec 32) (hw : w.toNat ≤ 512) : IntOp.cmpi .slt w 0#32 = 0#1 :=
  eq_zero_of_ne_one fun e => by
    have := (slt_iff_toNat (a := w) (b := 0#32) (by omega) (by decide)).mp e
    simp at this

theorem sge_zero_of_small (w : BitVec 32) (hw : w.toNat ≤ 512) : IntOp.cmpi .sge w 0#32 = 1#1 :=
  (sge_iff_toNat (a := w) (b := 0#32) (by omega) (by decide)).mpr (by simp)

theorem sle_512_of_small (w : BitVec 32) (hw : w.toNat ≤ 512) : IntOp.cmpi .sle w 512#32 = 1#1 :=
  (sle_iff_toNat (a := w) (b := 512#32) (by omega) (by decide)).mpr (by
    show w.toNat ≤ (512#32 : BitVec 32).toNat
    have : (512#32 : BitVec 32).toNat = 512 := by decide
    omega)

/-- An `and`-fold of ones from one is one. -/
theorem fold_andi_one {ι : Type} [DecidableEq ι] (s : Finset ι) (x : ι → BitVec 1) (hx : ∀ i ∈ s, x i = 1#1) :
    s.fold IntOp.andi 1#1 x = 1#1 := by
  induction s using Finset.induction_on with
  | empty => rfl
  | insert a s ha ih =>
    rw [Finset.fold_insert ha, hx a (Finset.mem_insert_self a s), ih fun i hi => hx i (Finset.mem_insert_of_mem hi)]
    decide

/-! ## The pieces of the reference's term, read at an entry -/

/-- The index array with a trailing unit axis, at `(b, T, 0)`. -/
theorem column_apply (D : IVec S16x4096 32) (b : Fin 16) (T : Fin 4096) :
    column D (ix3 b T (0 : Fin 1)) = D (ix2 b T) := by
  unfold column broadcastInDim
  refine congrArg D (funext fun a => Fin.ext ?_)
  match a with
  | ⟨0, _⟩ => rfl
  | ⟨1, _⟩ => rfl

/-- The start index of an entry in `[0, 512]` is the entry. -/
theorem start_apply (D : IVec S16x4096 32) (b : Fin 16) (T : Fin 4096) (hw : (D (ix2 b T)).toNat ≤ 512) :
    start D (ix3 b T (0 : Fin 1)) = D (ix2 b T) := by
  unfold start
  rw [select_apply]
  show Scalar.select (IntOp.cmpi .slt (column D (ix3 b T (0 : Fin 1))) 0#32) _ (column D (ix3 b T (0 : Fin 1))) = _
  rw [column_apply, slt_zero_of_small _ hw, select_zero]

/-- The range test passes at every entry. -/
theorem inRange_apply (D : IVec S16x4096 32) (hD : ∀ i, (D i).toNat ≤ 512) (b : Fin 16) (T : Fin 4096) :
    inRange D (ix2 b T) = 1#1 := by
  unfold inRange
  rw [Host.reduce_eq_fold]
  refine fold_andi_one _ _ fun i _ => ?_
  obtain ⟨b', T', z, rfl⟩ : ∃ (b' : Fin 16) (T' : Fin 4096) (z : Fin 1), i = ix3 b' T' z := ⟨i 0, i 1, i 2, eq_ix3 i⟩
  obtain rfl : z = 0 := Subsingleton.elim _ _
  show IntOp.andi (IntOp.cmpi .sge (start D (ix3 b' T' (0 : Fin 1))) 0#32)
      (IntOp.cmpi .sle (start D (ix3 b' T' (0 : Fin 1))) 512#32) = 1#1
  rw [start_apply D b' T' (hD _), sge_zero_of_small _ (hD _), sle_512_of_small _ (hD _)]
  decide

/-- The range test broadcast along the rows, at `(b, T, h)`. -/
theorem inRange_bcast_apply (D : IVec S16x4096 32) (b : Fin 16) (T : Fin 4096) (h : Fin 256) :
    broadcastInDim S16x4096x256 ![0, 1] bcast_S16x4096_S16x4096x256_0_1 (inRange D) (ix3 b T h) = inRange D (ix2 b T) := by
  unfold broadcastInDim
  refine congrArg (inRange D) (funext fun a => Fin.ext ?_)
  match a with
  | ⟨0, _⟩ => rfl
  | ⟨1, _⟩ => rfl

/-- The padded table: zero at frame `0`, `x` one frame back elsewhere. -/
theorem padded_apply (X : FVec Ideal S16x512x256 .f32) (b : Fin 16) (k : Fin 513) (h : Fin 256) :
    padded X (ix3 b k h) = if hk : k.val = 0 then 0 else X (ix3 b (⟨k.val - 1, by have := k.isLt; omega⟩ : Fin 512) h) := by
  unfold padded
  by_cases hk : k.val = 0
  · rw [dif_pos hk]
    refine (pad_apply_of_not_inside _ _ _ X _ pads_S16x512x256_S16x513x256_000_100_000 h_S_ (ix3 b k h) (1 : Fin 3) ?_).trans ?_
    · intro hc
      have h1 : (1 : ℕ) ≤ k.val := hc.1
      omega
    · show (((0#32 : BitVec 32).toInt : ℝ) : EReal) = 0
      simp
  · rw [dif_neg hk]
    refine pad_apply_of_inside _ _ _ X _ pads_S16x512x256_S16x513x256_000_100_000 h_S_ (ix3 b k h)
      (ix3 b (⟨k.val - 1, by have := k.isLt; omega⟩ : Fin 512) h) fun a => ?_
    match a with
    | ⟨0, _⟩ => show b.val = 0 + b.val * (0 + 1); omega
    | ⟨1, _⟩ => show k.val = 1 + (k.val - 1) * (0 + 1); omega
    | ⟨2, _⟩ => show h.val = 0 + h.val * (0 + 1); omega

/-- The length regulator's value at an entry whose index lies in `[0, 512]`. -/
theorem expand_at (X : FVec Ideal S16x512x256 .f32) (D : IVec S16x4096 32) (b : Fin 16) (T : Fin 4096) (h : Fin 256)
    (hw : (D (ix2 b T)).toNat ≤ 512) :
    expand X D (ix3 b T h)
      = if hk : (D (ix2 b T)).toNat = 0 then 0
        else X (ix3 b (⟨(D (ix2 b T)).toNat - 1, by omega⟩ : Fin 512) h) := by
  rw [expand_apply]
  have hsub : (D (ix2 b T) - 1#32).toNat = (2 ^ 32 - 1 + (D (ix2 b T)).toNat) % 2 ^ 32 := by
    rw [BitVec.toNat_sub]; rfl
  by_cases hk : (D (ix2 b T)).toNat = 0
  · rw [dif_pos hk, dif_neg (by rw [hsub, hk]; norm_num)]
  · have hv : (D (ix2 b T) - 1#32).toNat = (D (ix2 b T)).toNat - 1 := by rw [hsub]; omega
    rw [dif_neg hk, dif_pos (by rw [hv]; omega)]
    exact congrArg (fun k => X (ix3 b k h)) (Fin.ext hv)

/-! ## The result -/

/-- THE REFERENCE'S FIRST RESULT is the length regulator's value, where every index lies in `[0, 512]`. -/
theorem out_eq (X : FVec Ideal S16x512x256 .f32) (D : IVec S16x4096 32) (hD : ∀ i, (D i).toNat ≤ 512) :
    Terms.out X D = expand X D := by
  funext j
  obtain ⟨b, T, h, rfl⟩ : ∃ (b : Fin 16) (T : Fin 4096) (h : Fin 256), j = ix3 b T h := ⟨j 0, j 1, j 2, eq_ix3 j⟩
  have hw := hD (ix2 b T)
  have hg : gather_S16x513x256_S16x4096x1_S16x4096x256_2_1_0_0_1_2_11256
      = Cert.Lib.takeRowsDims 16 513 256 4096 gather_S16x513x256_S16x4096x1_S16x4096x256_2_1_0_0_1_2_11256_wf := rfl
  unfold Terms.out
  rw [select_apply, inRange_bcast_apply, inRange_apply D hD, select_one, hg,
    Cert.Lib.gather_takeRows_apply (by norm_num), expand_at X D b T h hw]
  -- the clamped start index is the entry itself
  have hv : min (start D (ix3 b T (0 : Fin 1))).toInt.toNat (513 - 1) = (D (ix2 b T)).toNat := by
    rw [start_apply D b T hw, toInt_eq_toNat_of_lt (by omega), Int.toNat_natCast]; omega
  have hk : ∀ (p : min (start D (ix3 b T (0 : Fin 1))).toInt.toNat (513 - 1) < 513),
      (⟨min (start D (ix3 b T (0 : Fin 1))).toInt.toNat (513 - 1), p⟩ : Fin 513) = ⟨(D (ix2 b T)).toNat, by omega⟩ :=
    fun p => Fin.ext hv
  rw [hk, padded_apply]

end Cert.ReferenceIdeal.RefValue

end
-- ==== Proof.lean ====
/-
  A length regulator: `out[b, T, :] = h[b, duration[b, T], :]`, where `h` is the table `x : [16, 512, 256]` with one
  zero frame in front of its time axis and `duration : [16, 4096]` holds indices into that padded axis, together
  with `mel_len[b]`, the position of the first zero entry of row `b` of `duration` (or `4096`).

  The kernel computes the gather as a matrix product: for each output row it builds the one-hot selector of
  `duration - 1` against the positions `0 … 511` and multiplies it into the table `[x_hi | x_lo]`, the two terms of
  a two-term split of `x` laid side by side, then adds the two halves. Over the extended reals a change of float
  format is the identity, so `x_hi = x` and `x_lo = x - x`, which is `0` where `x` is a real number (the
  finiteness precondition is used exactly there); the one-hot sum then picks `x[b, duration - 1, h]` when
  `1 ≤ duration ≤ 512` and nothing when `duration = 0`. The reference reads the padded table at `duration`
  directly, which is the same value as long as `duration` indexes the padded axis, `0 ≤ duration ≤ 512` (the
  second conjunct of the precondition; outside it the reference wraps or fills). The second result is computed
  by the same host operations from `duration` in both programs.

  The kernel's frame is the generated one; its value is read off the frame run (the blocks of the sixteen grid
  points tile the output array) and the host lines after the call; the reference's run is read back operation by
  operation.
-/
import proofs.«408916_j50414326120823_3_alg».proof.Defs
import proofs.«408916_j50414326120823_3_alg».proof.Proof.Gen.Kernel
import proofs.«408916_j50414326120823_3_alg».proof.Proof.Gen.Kernel.Skeleton
import proofs.«408916_j50414326120823_3_alg».proof.Proof.Gen.Kernel.Launch
import proofs.«408916_j50414326120823_3_alg».proof.Proof.Gen.Kernel.Points
import proofs.«408916_j50414326120823_3_alg».proof.Proof.Gen.Kernel.Frame
import proofs.«408916_j50414326120823_3_alg».proof.Proof.Gen.KernelIdeal
import proofs.«408916_j50414326120823_3_alg».proof.Proof.Gen.KernelIdeal.Skeleton
import proofs.«408916_j50414326120823_3_alg».proof.Proof.Gen.KernelIdeal.Launch
import proofs.«408916_j50414326120823_3_alg».proof.Proof.Gen.KernelIdeal.Points
import proofs.«408916_j50414326120823_3_alg».proof.Proof.Gen.KernelIdeal.Frame
import proofs.«408916_j50414326120823_3_alg».proof.Proof.Gen.ReferenceIdeal
import proofs.«408916_j50414326120823_3_alg».proof.Proof.Gen.Pre_finite_inputs
import proofs.«408916_j50414326120823_3_alg».proof.Proof.PreDecode
import proofs.«408916_j50414326120823_3_alg».proof.Proof.KernelValue
import proofs.«408916_j50414326120823_3_alg».proof.Proof.RefRun
import proofs.«408916_j50414326120823_3_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.HandRun.run (F := Ideal) m ρ)

/-- The ideal pass rewrote nothing. -/
theorem preserves : Cert.preserves_Kernel_KernelIdeal := trivial

/-- The two programs compute the row lengths by the same operations. -/
theorem melLen_eq (d : IVec Cert.KernelIdeal.S16x4096 32) :
    Cert.ReferenceIdeal.Terms.melLen d = Cert.KernelIdeal.HandValue.melLen d := rfl

/-- From memories agreeing on the arguments, under the precondition, both programs end with the length
    regulator's value and the row lengths. -/
theorem algebraic : Cert.algebraic_KernelIdeal_ReferenceIdeal := by
  intro m ρ m' ρ' hpre hagree
  have hx : ∀ (c : Dev Cert.KernelIdeal.nD) i, ∃ r : ℝ,
      (m ((c.tc : Thread Cert.KernelIdeal.nD Cert.KernelIdeal.τ).loc Cert.KernelIdeal.main_arg0) i : EReal) = (r : EReal) :=
    fun c i => Cert.PreDecode.real_of_pre _ _ (hpre c) i
  have hd : ∀ (c : Dev Cert.KernelIdeal.nD) i,
      (m ((c.tc : Thread Cert.KernelIdeal.nD Cert.KernelIdeal.τ).loc Cert.KernelIdeal.main_arg1) i).toNat ≤ 512 :=
    fun c i => Cert.PreDecode.le_512_of_pre _ _ (hpre c) i
  refine ⟨_, _, Cert.KernelIdeal.HandValue.run m ρ hx, ?_⟩
  refine (θ_run Cert.ReferenceIdeal.defs _ _).mono
    (fun _ h c => ⟨(h c).1.trans ?_, (h c).2.1.trans ?_, (h c).2.2.1, (h c).2.2.2⟩)
    (Cert.ReferenceIdeal.HandRun.run (F := Ideal) m' ρ')
  · rw [(hagree c).1, (hagree c).2]
    exact Cert.ReferenceIdeal.RefValue.out_eq _ _ (hd c)
  · rw [(hagree c).2]
    exact melLen_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
